-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 21
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S128x128, .f32⟩
  | .hbm, ⟨19, _⟩ => ⟨S1x128, .f32⟩
  | .hbm, ⟨20, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S128x128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.ReluAffine.lean ====
/-
  The function both programs compute, as one map of whole arrays.

  A node's aggregated feature row is multiplied by the transposed weight matrix, the bias is added, and the
  result is clamped below at zero.  Entry (r, c) of the result is

      max ( ∑ k, agg (r, k) · w (c, k) + b c , 0 )

  over the extended reals: a sum of 128 products, one addition and one maximum.  Nothing in it depends on the order
  of the sum or on finiteness of the entries, so no precondition on the inputs is used anywhere below.
-/
import Idealize.ShloMosaic.PureOps.Ideal
import Idealize.ShloMosaic.PureOps.Ideal.Laws
import Idealize.ShloMosaic.Lib.ValueIdx

noncomputable section

namespace Cert.ReluAffine

open Idealize.ShloMosaic Idealize.ShloMosaic.ValueIdx

/-- The aggregated features: one row of 128 entries for each of the 50000 nodes. -/
abbrev Rows : Shape := ⟨2, ![50000, 128]⟩
/-- The weight matrix, output feature by input feature. -/
abbrev Square : Shape := ⟨2, ![128, 128]⟩
/-- The bias, one entry per output feature. -/
abbrev Feat : Shape := ⟨1, ![128]⟩

/-- `max (agg · wᵀ + b, 0)`, entry by entry: entry (r, c) contracts row `r` of `agg` with row `c` of `w`. -/
def reluAffine (agg : FVec Ideal Rows .f32) (w : FVec Ideal Square .f32) (b : FVec Ideal Feat .f32) : FVec Ideal Rows .f32 :=
  fun i => max ((∑ k : Fin 128, agg (ix2 (i 0) k) * w (ix2 (i 1) k)) + b (ix1 (i 1))) 0

/-- The same entry named by its two coordinates. -/
theorem reluAffine_ix2 (agg : FVec Ideal Rows .f32) (w : FVec Ideal Square .f32) (b : FVec Ideal Feat .f32)
    (r : Fin 50000) (c : Fin 128) :
    reluAffine agg w b (ix2 r c) = max ((∑ k : Fin 128, agg (ix2 r k) * w (ix2 c k)) + b (ix1 c)) 0 := rfl

end Cert.ReluAffine

end
-- ==== Proof.KernelEntry.lean ====
/-
  What the host leaves for the grid.

  Before the grid runs, the host has aggregated the features into a 50000 × 128 array, transposed the weight matrix
  and laid the bias out as a single row.  The transposed matrix at (k, c) is the weight matrix at (c, k), and the
  bias row at (0, c) is the bias at c.
-/
import proofs.«115792_j10591389352061_1_alg».proof.Proof.Gen.KernelIdeal.Value
import proofs.«115792_j10591389352061_1_alg».proof.Proof.ReluAffine
import Idealize.ShloMosaic.Lib.StableHlo.Run
import Idealize.ShloMosaic.PureOps.Ideal

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregation: each edge's source row (a negative source index counted from the end) is gathered and added
    into its destination row of an array of zeros.  It is kept as one term and never opened: the reference computes
    the same term. -/
def aggregated (x0 : (⟨S50000x128, .f32⟩ : BufTy).Contents (Elt Ideal)) (x1 x2 : (⟨S800000, .i32⟩ : BufTy).Contents (Elt Ideal)) :
    (⟨S50000x128, .f32⟩ : BufTy).Contents (Elt Ideal) :=
  Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 x2) (Host.gather gather_S50000x128_S800000x1_S800000x128_1_0_n_n_0_1_1128 x0 (broadcastInDim S800000x1 ![0] bcast_S800000_S800000x1_0 (select (cmpi .slt x1 (broadcastInDim S800000 ![] bcast_S_S800000 (constantI S_ 32 0#32))) (addi x1 (broadcastInDim S800000 ![] bcast_S_S800000 (constantI S_ 32 50000#32))) x1)))

/-- The first staged array is the aggregation of the features over the edges. -/
theorem entry_agg (c : Dev nD) : (V m c main_v9 : S50000x128.Idx → EReal)
    = aggregated (m ((c : Thread nD τ).loc main_arg0)) (m ((c : Thread nD τ).loc main_arg1)) (m ((c : Thread nD τ).loc main_arg2)) := by
  unfold aggregated
  dsimp only [V, hostOps0]; after_results <;> rfl

/-- The second is the weight matrix transposed. -/
theorem entry_wt (c : Dev nD) : (V m c main_v10 : S128x128.Idx → EReal)
    = transpose S128x128 [1, 0] (m ((c : Thread nD τ).loc main_arg3)) transposes_S128x128_S128x128_1_0 := by
  dsimp only [V, hostOps0]; after_results <;> rfl

/-- The third is the bias as one row. -/
theorem entry_brow (c : Dev nD) : (V m c main_v11 : S1x128.Idx → EReal)
    = shapeCast S1x128 (m ((c : Thread nD τ).loc main_arg4)) shapeCasts_S128_S1x128 := by
  dsimp only [V, hostOps0]; after_results <;> rfl

/-- The transposed matrix at (k, c) is the matrix at (c, k). -/
theorem transposed_apply (w : FVec Ideal S128x128 .f32) (h : S128x128.Transposes [1, 0] S128x128) (k c : Fin 128) :
    transpose S128x128 [1, 0] w h (ix2 k c) = w (ix2 c k) :=
  transpose_apply [1, 0] w h (ix2 k c) (ix2 c k) (fun b => match b with
    | ⟨0, _⟩ => rfl
    | ⟨1, _⟩ => rfl)

/-- The bias laid out as a row, at (0, c), is the bias at c. -/
theorem row_apply (b : FVec Ideal S128 .f32) (h : S128.ShapeCasts S1x128) (c : Fin 128) :
    shapeCast S1x128 b h (ix2 0 c) = b (ix1 c) :=
  shapeCast_apply b h (ix2 0 c) (ix1 c) (by
    rw [Shape.rowMajor_val_one, Shape.rowMajor_val_two]
    show c.val = 0 * 128 + c.val
    omega)

end Cert.KernelIdeal.Whole

end
-- ==== Proof.BlockBody.lean ====
/-
  What one grid step stores, entry by entry.

  A grid step holds a block of 2000 aggregated rows, the whole transposed weight matrix and the bias as a single row.
  It multiplies the block by the matrix, adds the bias row to every row of the product and clamps at zero.  Read over
  the extended reals the two narrowing casts in front of the product are the identity and the product into a zero
  accumulator is the plain sum of products, so entry (p, q) of the stored block is

      max ( ∑ k, a (p, k) · wt (k, q) + brow (0, q) , 0 ).
-/
import proofs.«115792_j10591389352061_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Idealize.ShloMosaic Idealize.ShloMosaic.ValueIdx

/-! ## The block product's operand indices

Output entry (p, q) at contraction index k reads the left operand at (p, k) and the right operand at (k, q). -/

theorem lhs_blockDot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_blockDot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_blockDot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_blockDot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at entry (p, q): the sum over the 128 input features. -/
theorem blockProduct_apply (a : FVec Ideal S2000x128 .bf16) (wt : FVec Ideal S128x128 .bf16) (p : Fin 2000) (q : Fin 128) :
    matmul dot_S2000x128_S128x128_S2000x128_1_0_0_1_n_n none a wt (constant S2000x128 .f32 0x00000000#32) (ix2 p q)
      = ∑ k : Fin 128, a (ix2 p k) * wt (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_blockDot_0 _ _
    | ⟨1, _⟩ => exact (lhs_blockDot_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_blockDot_0 _ _).trans hk
    | ⟨1, _⟩ => exact rhs_blockDot_1 _ _)
  rw [el, er]

/-- The bias row repeated down the block: every row reads the one row it was given. -/
theorem biasRows_apply (brow : FVec Ideal S1x128 .f32) (h : S1x128.Broadcasts S2000x128) (p : Fin 2000) (q : Fin 128) :
    broadcastTo S2000x128 brow h (ix2 p q) = brow (ix2 0 q) :=
  broadcastTo_apply brow h (ix2 p q) (ix2 0 q) (fun a => match a with
    | ⟨0, _⟩ => by show (0 : ℕ) = if (1 : Nat) = 1 then 0 else p.val; rw [if_pos rfl]
    | ⟨1, _⟩ => by show q.val = if (128 : Nat) = 1 then 0 else q.val; rw [if_neg (by decide)])

/-- Entry (p, q) of the block a grid step stores. -/
theorem stored_apply (a : Vec Ideal S2000x128 .f32) (wt : Vec Ideal S128x128 .f32) (brow : Vec Ideal S1x128 .f32)
    (p : Fin 2000) (q : Fin 128) :
    Gen.k0_pay1 (F := Ideal) a wt brow (ix2 p q) = max ((∑ k : Fin 128, a (ix2 p k) * wt (ix2 k q)) + brow (ix2 0 q)) 0 := by
  unfold Gen.k0_pay1
  rw [maximumf_apply, addf_apply, broadcast_apply, blockProduct_apply, biasRows_apply]
  simp only [shapeCast_self, truncf_apply]
  exact congrArg (max _) Ideal.ofBits_zero_f32

end Cert.KernelIdeal.Body

end
-- ==== Proof.KernelBlocks.lean ====
/-
  What one grid step reads.

  Grid step t reads rows 2000·t … 2000·t + 1999 of the aggregated array and the whole of the transposed matrix and of
  the bias row.  Row p of the step's aggregated block is row 2000·t + p of the array; the matrix block at (k, q) is the
  weight matrix at (q, k); the bias block at (0, q) is the bias at q.  With those three readings, entry (p, q) of what a
  step stores is entry (2000·t + p, q) of `reluAffine` of the aggregated array, the weight matrix and the bias.
-/
import proofs.«115792_j10591389352061_1_alg».proof.Proof.KernelEntry
import proofs.«115792_j10591389352061_1_alg».proof.Proof.BlockBody

noncomputable section

namespace Cert.KernelIdeal.Whole

open Cert.KernelIdeal Cert.KernelIdeal.Gen Idealize.ShloMosaic Idealize.ShloMosaic.TcCoe Idealize.SL.Sem
open Idealize.ShloMosaic.ValueIdx Cert.ReluAffine
open Idealize.ShloMosaic.Pipeline (Dat)

variable (m : (ℓ : Loc nD τ sig) → Buf (Elt Ideal) ℓ)

/-- A stored entry, from what the step's three blocks hold: if row `p` of the aggregated block is row `r` of the
    array, the matrix block is the transposed weight matrix and the bias block is the bias row, then entry (p, q) of
    the stored block is entry (r, q) of `reluAffine`. -/
theorem stored_eq (a : Vec Ideal S2000x128 .f32) (wt : Vec Ideal S128x128 .f32) (brow : Vec Ideal S1x128 .f32)
    (agg : FVec Ideal Rows .f32) (w : FVec Ideal Square .f32) (b : FVec Ideal Feat .f32)
    (p : Fin 2000) (q : Fin 128) (r : Fin 50000)
    (ha : ∀ k : Fin 128, a (ix2 p k) = agg (ix2 r k))
    (hw : ∀ k : Fin 128, wt (ix2 k q) = w (ix2 q k))
    (hb : brow (ix2 0 q) = b (ix1 q)) :
    k0_pay1 (F := Ideal) a wt brow (ix2 p q) = reluAffine agg w b (ix2 r q) := by
  rw [Body.stored_apply, reluAffine_ix2, hb]
  simp only [ha, hw]

theorem origin : (![0, 0] : Fin 2 → Nat) = fun _ => 0 := funext fun a => by fin_cases a <;> rfl

/-- The block indices, decided over the 25 steps: the aggregated block moves with the output block down the rows,
    every other block index is zero, and the output's row block index is at most 24. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 24 :=
  (by decide +kernel : ∀ t : Fin grid0.N, _)

/-- Reading step `t`'s row block out of ANY 50000 × 128 array: row `p` of the block is row
    `r` = 2000·(row block index) + p of the array.  It holds of every array: only the block's position in the array
    enters, not what the array holds. -/
theorem rows_read (c : Dev nD) (A : Buf (Elt Ideal) ((c : Thread nD τ).loc main_v9)) (t : Fin cfg0.N)
    (p : Fin 2000) (k : Fin 128) (r : Fin 50000) (hr : r.val = win0_3.index t (0 : Fin 2) * 2000 + 1 * p.val) :
    ((cfg0.win 0).blk t).view.read (Elt Ideal) A (ix2 p k) = A (ix2 r k) := by
  obtain ⟨e00, e01, -⟩ := block_indices t
  show A (((cfg0.win 0).blk t).view.emb (ix2 p k)) = A (ix2 r k)
  refine congrArg A (funext fun a => Fin.ext ?_)
  match a with
  | ⟨0, _⟩ =>
    show win0_0.index t (0 : Fin 2) * 2000 + 1 * p.val = r.val
    omega
  | ⟨1, _⟩ =>
    show win0_0.index t (1 : Fin 2) * 128 + 1 * k.val = k.val
    omega

/-- Row `p` of step `t`'s aggregated block is row `r` of the aggregated array. -/
theorem agg_block (c : Dev nD) (t : Fin cfg0.N) (p : Fin 2000) (k : Fin 128) (r : Fin 50000)
    (hr : r.val = win0_3.index t (0 : Fin 2) * 2000 + 1 * p.val) :
    iblk m c 0 t (ix2 p k) = V m c main_v9 (ix2 r k) := by
  unfold iblk
  exact rows_read c (V m c main_v9) t p k r hr

/-- Step `t`'s matrix block at (k, q) is the weight matrix at (q, k). -/
theorem wt_block (c : Dev nD) (t : Fin cfg0.N) (k q : Fin 128) :
    iblk m c 1 t (ix2 k q) = m ((c : Thread nD τ).loc main_arg3) (ix2 q k) := by
  obtain ⟨-, -, e10, e11, -⟩ := block_indices t
  have e : iblk m c 1 t (ix2 k q) = V m c main_v10 (ix2 k q) := by
    show V m c main_v10 (((cfg0.win 1).blk t).view.emb (ix2 k q)) = V m c main_v10 (ix2 k q)
    refine congrArg (V m c main_v10) (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = q.val
      omega
  rw [e, entry_wt, transposed_apply]

/-- Step `t`'s bias block at (0, q) is the bias at q. -/
theorem brow_block (c : Dev nD) (t : Fin cfg0.N) (q : Fin 128) :
    iblk m c 2 t (ix2 0 q) = m ((c : Thread nD τ).loc main_arg4) (ix1 q) := by
  obtain ⟨-, -, -, -, e20, e21, -⟩ := block_indices t
  have e : iblk m c 2 t (ix2 0 q) = V m c main_v11 (ix2 0 q) := by
    show V m c main_v11 (((cfg0.win 2).blk t).view.emb (ix2 0 q)) = V m c main_v11 (ix2 0 q)
    refine congrArg (V m c main_v11) (funext fun a => Fin.ext ?_)
    match a with
    | ⟨0, _⟩ =>
      show win0_2.index t (0 : Fin 2) * 1 + 1 * (0 : Fin 1).val = (0 : Fin 1).val
      omega
    | ⟨1, _⟩ =>
      show win0_2.index t (1 : Fin 2) * 128 + 1 * q.val = q.val
      omega
  rw [e, entry_brow, row_apply]

end Cert.KernelIdeal.Whole

end
-- ==== Proof.KernelStep.lean ====
/-
  One grid step writes its rows of a whole-array function.

  Grid step t writes rows 2000·t … 2000·t + 1999 of the result: entry (p, q) of the block it stores lands at entry
  (2000·t + p, q) of the array.  So if a function G of the whole array has, at every such entry, the value the step
  stores, then what the step writes back is its block of G.  G is arbitrary here; the next module takes it to be
  `reluAffine` of the aggregated array, the weight matrix and the bias.
-/
import proofs.«115792_j10591389352061_1_alg».proof.Proof.KernelBlocks

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Entry (p, q) of step `t`'s output block is entry (2000·(row block index) + p, q) of the result array. -/
theorem out_block_emb (t : Fin cfg0.N) (p : Fin 2000) (q : Fin 128) (r : Fin 50000)
    (hr : r.val = win0_3.index t (0 : Fin 2) * 2000 + 1 * p.val) :
    ((cfg0.win 3).blk t).view.emb (ix2 p q) = ix2 r q := by
  obtain ⟨-, -, -, -, -, -, e31, -⟩ := block_indices t
  refine funext fun a => Fin.ext ?_
  match a with
  | ⟨0, _⟩ =>
    show win0_3.index t (0 : Fin 2) * 2000 + 1 * p.val = r.val
    omega
  | ⟨1, _⟩ =>
    show win0_3.index t (1 : Fin 2) * 128 + 1 * q.val = q.val
    omega

/-- WHAT STEP `t` WRITES BACK is block `t` of any whole-array function that agrees, on the step's rows, with what the
    step stores. -/
theorem flushed_eq_of (c : Dev nD) (t : Fin cfg0.N) (G : Buf (Elt Ideal) ((c : Thread nD τ).loc main_v12))
    (hG : ∀ (p : Fin 2000) (q : Fin 128) (r : Fin 50000), r.val = win0_3.index t (0 : Fin 2) * 2000 + 1 * p.val →
      k0_pay1 (F := Ideal) (iblk m c 0 t) (iblk m c 1 t) (iblk m c 2 t) (ix2 p q) = G (ix2 r q)) :
    (dats m 0 c).flushed 3 t = ((cfg0.win 3).blk t).view.read (Elt Ideal) G := by
  rw [Value.flushed3]
  unfold out0_3
  rw [View.canon_unit_zero origin]
  simp only [View.ld_unit_zero (S := S2000x128) origin, View.ld_unit_zero (S := S128x128) origin, View.ld_unit_zero (S := S1x128) origin]
  obtain ⟨-, -, -, -, -, -, -, e30⟩ := block_indices t
  funext j
  obtain ⟨p, q, rfl⟩ : ∃ (p : Fin 2000) (q : Fin 128), j = ix2 p q := ⟨j 0, j 1, eq_ix2 j⟩
  have hp : p.val < 2000 := p.isLt
  obtain ⟨r, hr⟩ : ∃ r : Fin 50000, r.val = win0_3.index t (0 : Fin 2) * 2000 + 1 * p.val :=
    ⟨⟨win0_3.index t (0 : Fin 2) * 2000 + 1 * p.val, by omega⟩, rfl⟩
  show k0_pay1 (F := Ideal) (iblk m c 0 t) (iblk m c 1 t) (iblk m c 2 t) (ix2 p q) = G (((cfg0.win 3).blk t).view.emb (ix2 p q))
  rw [out_block_emb t p q r hr]
  exact hG p q r hr

end Cert.KernelIdeal.Whole

end
-- ==== Proof.KernelWhole.lean ====
/-
  The kernel's result array is the specification.

  Each grid step writes its rows of `reluAffine` of the aggregated array, the weight matrix and the bias: entry (p, q)
  of what step t stores is, by the three block readings, entry (2000·t + p, q) of that function.  The 25 steps' row
  ranges cover all 50000 rows of the result — row r is written by step r / 2000 — so the whole result array is that
  function, and the kernel's run ends with it there.
-/
import proofs.«115792_j10591389352061_1_alg».proof.Proof.KernelStep

noncomputable section

namespace Cert.KernelIdeal.Whole

open Cert.KernelIdeal Cert.KernelIdeal.Gen Idealize.ShloMosaic Idealize.ShloMosaic.TcCoe Idealize.SL.Sem
open Idealize.ShloMosaic.ValueIdx Cert.ReluAffine
open Idealize.ShloMosaic.Pipeline (Dat)

variable (m : (ℓ : Loc nD τ sig) → Buf (Elt Ideal) ℓ) (ρ : Dev nD → PrngReg)

/-- Every row block is some step's. -/
theorem block_onto : ∀ q0 : Fin 25, ∃ t : Fin cfg0.N, win0_3.index t = ![q0.val, 0] :=
  (by decide +kernel : ∀ q0 : Fin 25, ∃ t : Fin grid0.N, win0_3.index t = ![q0.val, 0])

/-- An index of the array is in step `t`'s block iff each coordinate is in the block's range on its axis. -/
theorem mem_block (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v12).slice (win0_3.rect t)).set ↔ _
  rw [View.set_slice_whole, Rect.mem_set_unit]
  exact Iff.rfl

/-- Row r is written by step r / 2000. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := block_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- THE ARRAY after the run, over the aggregated array as the grid finds it. -/
theorem final_staged (c : Dev nD) : (dats m 0 c).arrAt 3 cfg0.N
    = reluAffine (V m c main_v9) (m ((c : Thread nD τ).loc main_arg3)) (m ((c : Thread nD τ).loc main_arg4)) :=
  (dats m 0 c).arrAt_eq_of_cover 3
    (reluAffine (V m c main_v9) (m ((c : Thread nD τ).loc main_arg3)) (m ((c : Thread nD τ).loc main_arg4)))
    (fun t _ => flushed_eq_of m c t
      (reluAffine (V m c main_v9) (m ((c : Thread nD τ).loc main_arg3)) (m ((c : Thread nD τ).loc main_arg4)))
      (fun p q r hr => stored_eq (iblk m c 0 t) (iblk m c 1 t) (iblk m c 2 t) (V m c main_v9)
        (m ((c : Thread nD τ).loc main_arg3)) (m ((c : Thread nD τ).loc main_arg4)) p q r
        (fun k => agg_block m c t p k r hr) (fun k => wt_block m c t k q) (brow_block m c t q)))
    covered

/-- THE ARRAY after the run, over the inputs. -/
theorem final (c : Dev nD) : (dats m 0 c).arrAt 3 cfg0.N
    = reluAffine (aggregated (m ((c : Thread nD τ).loc main_arg0)) (m ((c : Thread nD τ).loc main_arg1)) (m ((c : Thread nD τ).loc main_arg2)))
        (m ((c : Thread nD τ).loc main_arg3)) (m ((c : Thread nD τ).loc main_arg4)) :=
  (final_staged m c).trans (congrArg
    (fun A => reluAffine A (m ((c : Thread nD τ).loc main_arg3)) (m ((c : Thread nD τ).loc main_arg4))) (entry_agg m c))

/-- Every weakly fair execution of the kernel's program ends with the result array at `reluAffine` of the aggregated
    features, the weight matrix and the bias, the arguments unchanged. -/
theorem run : θ_run defs (onTc (τ := τ) (main (F := Ideal))) ⟨m, fun _ => 0, ρ⟩ fun r => ∀ c : Dev nD,
      r.2.mem ((c : Thread nD τ).loc main_v12)
        = reluAffine (aggregated (m ((c : Thread nD τ).loc main_arg0)) (m ((c : Thread nD τ).loc main_arg1)) (m ((c : Thread nD τ).loc main_arg2)))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.ReferenceWhole.lean ====
/-
  The reference's result is the specification.

  After aggregating, the reference contracts each aggregated row with the transposed weight matrix, adds the bias
  broadcast over the rows and clamps at zero.  Entry (r, c) of the transposed matrix is entry (c, r) of the weight
  matrix, and the twice-broadcast bias reads entry c, so the reference's entry (r, c) is
  max (∑ k, agg (r, k) · w (c, k) + b c, 0) as it stands.
-/
import proofs.«115792_j10591389352061_1_alg».proof.Proof.Gen.ReferenceIdeal.Read
import proofs.«115792_j10591389352061_1_alg».proof.Proof.ReluAffine

noncomputable section

namespace Cert.ReferenceIdeal.Whole

open Cert.ReferenceIdeal Cert.ReferenceIdeal.Read Idealize.ShloMosaic Idealize.ShloMosaic.ValueIdx Cert.ReluAffine

/-- The product's left operand index at (r, c) and k is (r, k). -/
theorem left_index (i : S50000x128.Idx) (k : Fin 128) : lidx_main_v11 i k = ix2 (i 0) k :=
  funext fun a => match a with | ⟨0, _⟩ => rfl | ⟨1, _⟩ => rfl

/-- Its right operand is the transposed weight matrix at (k, c), which is the weight matrix at (c, k). -/
theorem right_index (i : S50000x128.Idx) (k : Fin 128) : idx_main_v10 (ridx_main_v11 i k) = ix2 (i 1) k :=
  funext fun a => match a with | ⟨0, _⟩ => rfl | ⟨1, _⟩ => rfl

/-- The bias broadcast to a row and then over the rows reads its entry c. -/
theorem bias_index (i : S50000x128.Idx) : idx_main_v12 (idx_main_v13 i) = ix1 (i 1) :=
  funext fun a => match a with | ⟨0, _⟩ => rfl

/-- The reference's last stage, over the aggregation stage left as it is, is `reluAffine`. -/
theorem result_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal)) :
    val_main_v15 (F := Ideal) x0 x1 x2 x3 x4 = reluAffine (val_main_v9 (F := Ideal) x0 x1 x2) x3 x4 := by
  funext i
  rw [val_main_v15_apply, val_main_v14_apply, val_main_v11_apply, val_main_v13_apply, val_main_v12_apply,
    val_main_call0_v0_apply, val_main_call0_cst_apply]
  simp only [val_main_v10_apply, left_index, right_index, bias_index]
  exact congrArg (max _) Ideal.ofBits_zero_f32

end Cert.ReferenceIdeal.Whole

end
-- ==== Proof.lean ====
/-
  Aggregating node features over the edges, then a linear layer with bias and a clamp at zero: the tiled kernel
  against the whole-array reference.

  Both programs first gather each edge's source row of the features and add it into the edge's destination row of
  an array of zeros; the two aggregation stages are the same operations on the same inputs, so they are carried as
  one term and never opened.  On the 50000 × 128 aggregated array the reference forms agg · wᵀ + b with one
  contraction over the whole array and clamps at zero.  The kernel transposes the weight matrix and lays the bias
  out as a row on the host, then runs 25 grid steps, each taking 2000 rows of the aggregated array through a block
  product, the bias row and the clamp.  Over the extended reals the kernel's narrowing casts are the identity and
  both products are the same sum of 128 products, so entry (r, c) of both results is

      max ( ∑ k, agg (r, k) · w (c, k) + b c , 0 ).

  Proof/ReluAffine.lean states that function; Proof/BlockBody.lean reads one grid step's stored block entry by entry;
  Proof/KernelWhole.lean reads the staged arrays, shows each step writes its rows of the function and that the 25
  row ranges cover the array; Proof/ReferenceWhole.lean reads the reference's last stage as the same function.  The
  two sides agree as they stand: no law beyond unfolding the operations is needed, and the finiteness of the inputs
  is not used.  Here the three termination claims come from the runs, the idealization rewrote nothing, and the two
  results are joined.
-/
import proofs.«115792_j10591389352061_1_alg».proof.Defs
import proofs.«115792_j10591389352061_1_alg».proof.Proof.Gen.Kernel
import proofs.«115792_j10591389352061_1_alg».proof.Proof.Gen.Kernel.Skeleton
import proofs.«115792_j10591389352061_1_alg».proof.Proof.Gen.Kernel.Launch
import proofs.«115792_j10591389352061_1_alg».proof.Proof.Gen.Kernel.Points
import proofs.«115792_j10591389352061_1_alg».proof.Proof.Gen.Kernel.Frame
import proofs.«115792_j10591389352061_1_alg».proof.Proof.Gen.KernelIdeal
import proofs.«115792_j10591389352061_1_alg».proof.Proof.Gen.KernelIdeal.Skeleton
import proofs.«115792_j10591389352061_1_alg».proof.Proof.Gen.KernelIdeal.Launch
import proofs.«115792_j10591389352061_1_alg».proof.Proof.Gen.KernelIdeal.Points
import proofs.«115792_j10591389352061_1_alg».proof.Proof.Gen.KernelIdeal.Frame
import proofs.«115792_j10591389352061_1_alg».proof.Proof.Gen.ReferenceIdeal
import proofs.«115792_j10591389352061_1_alg».proof.Proof.Gen.Pre_finite_inputs
import proofs.«115792_j10591389352061_1_alg».proof.Proof.Gen.KernelIdeal.Value
import proofs.«115792_j10591389352061_1_alg».proof.Proof.Gen.ReferenceIdeal.Run
import proofs.«115792_j10591389352061_1_alg».proof.Proof.Gen.ReferenceIdeal.Read
import proofs.«115792_j10591389352061_1_alg».proof.Proof.KernelWhole
import proofs.«115792_j10591389352061_1_alg».proof.Proof.ReferenceWhole
import Idealize.ShloMosaic.Adequacy
import Idealize.ShloMosaic.Init

noncomputable section

namespace Cert.Proof

open Idealize.ShloMosaic Idealize.SL.Sem

/-- The two programs' aggregation stages are one term: the same gather and scatter-add of the same arrays. -/
theorem aggregated_eq (x0 : (⟨Cert.ReferenceIdeal.S50000x128, .f32⟩ : BufTy).Contents (Elt Ideal))
    (x1 x2 : (⟨Cert.ReferenceIdeal.S800000, .i32⟩ : BufTy).Contents (Elt Ideal)) :
    Cert.ReferenceIdeal.Read.val_main_v9 (F := Ideal) x0 x1 x2 = Cert.KernelIdeal.Whole.aggregated x0 x1 x2 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five inputs both runs end with the result at `reluAffine` of the aggregated
    features, the weight matrix and the bias. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Whole.result_eq, aggregated_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
